-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S64x128 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128x64 : Shape := ⟨2, ![128, 64]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 124
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S128x64, .f32⟩
  | .hbm, ⟨47, _⟩ => ⟨S100000x64, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S64x64, .f32⟩
  | .hbm, ⟨104, _⟩ => ⟨S100000x64, .f32⟩
  | .hbm, ⟨105, _⟩ => ⟨S1700000x1, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x64, .f32⟩
  | .hbm, ⟨116, _⟩ => ⟨S1700000x64, .f32⟩
  | .hbm, ⟨117, _⟩ => ⟨S_, .f32⟩
  | .hbm, ⟨118, _⟩ => ⟨S100000x64, .f32⟩
  | .hbm, ⟨119, _⟩ => ⟨S1700000x1, .i32⟩
  | .hbm, ⟨120, _⟩ => ⟨S100000x64, .f32⟩
  | .hbm, ⟨121, _⟩ => ⟨S1x64, .f32⟩
  | .hbm, ⟨122, _⟩ => ⟨S100000x64, .f32⟩
  | .hbm, ⟨123, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x128_S128x64_1_0 : S64x128.Transposes [1, 0] S128x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S64x64_S64x64_1_0 : S64x64.Transposes [1, 0] S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v72) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v73) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128x64 : Shape := ⟨2, ![128, 64]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S128x64, .f32⟩
  | .hbm, ⟨47, _⟩ => ⟨S100000x64, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S64x64, .f32⟩
  | .hbm, ⟨104, _⟩ => ⟨S100000x64, .f32⟩
  | .hbm, ⟨105, _⟩ => ⟨S1700000x1, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x64, .f32⟩
  | .hbm, ⟨116, _⟩ => ⟨S1700000x64, .f32⟩
  | .hbm, ⟨117, _⟩ => ⟨S_, .f32⟩
  | .hbm, ⟨118, _⟩ => ⟨S100000x64, .f32⟩
  | .hbm, ⟨119, _⟩ => ⟨S1700000x1, .i32⟩
  | .hbm, ⟨120, _⟩ => ⟨S100000x64, .f32⟩
  | .hbm, ⟨121, _⟩ => ⟨S1x64, .f32⟩
  | .hbm, ⟨122, _⟩ => ⟨S100000x64, .f32⟩
  | .hbm, ⟨123, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x128_S128x64_1_0 : S64x128.Transposes [1, 0] S128x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S64x64_S64x64_1_0 : S64x64.Transposes [1, 0] S64x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Gcn.lean ====
/-
  The two-layer graph convolution as one function of its six arguments, written once with the host operations the
  reference program prints. Every edge list entry is a (source, target) pair; the node's own index is appended to
  both lists (the self loops). A layer is: the degree of each node counted over the targets, its inverse square
  root where the degree is positive and zero elsewhere, the edge weight dinv[source] * dinv[target], the features
  projected by the transposed weight, gathered at the sources, scaled by the edge weight, added up at the targets,
  plus the bias. The layers are joined by max(., 0).
-/
import proofs.«176693_j3264175145417_1_alg».proof.Proof.Gen.ReferenceIdeal

noncomputable section

namespace Cert.Gcn

open Cert.ReferenceIdeal Cert.ReferenceIdeal.Gen Idealize.ShloMosaic

variable {F : FTy → Type} [FloatOps F]

/-- The sources: row 0 of the edge list, followed by the nodes' own indices 0 … 99999 (the self loops). -/
def srcOf (e : Vec F S2x1600000 .i32) : Vec F S1700000 .i32 :=
  concatenate S1700000 0 [⟨S1600000, (shapeCast S1600000 (extractStridedSlice S1x1600000 ![0, 0] e slices_S2x1600000_S1x1600000_0_0) shapeCasts_S1x1600000_S1600000)⟩, ⟨S100000, (iotaInDim S100000 32 0)⟩] concatenates_S1600000_S100000_S1700000_d0

/-- The targets: row 1 of the edge list, followed by the nodes' own indices 0 … 99999. -/
def dstOf (e : Vec F S2x1600000 .i32) : Vec F S1700000 .i32 :=
  concatenate S1700000 0 [⟨S1600000, (shapeCast S1600000 (extractStridedSlice S1x1600000 ![1, 0] e slices_S2x1600000_S1x1600000_1_0) shapeCasts_S1x1600000_S1600000)⟩, ⟨S100000, (iotaInDim S100000 32 0)⟩] concatenates_S1600000_S100000_S1700000_d0

/-- A negative index counts from the end: v + 100000 where v < 0. -/
def wrap (v : Vec F S1700000 .i32) : Vec F S1700000 .i32 :=
  select (cmpi .slt v (broadcastInDim S1700000 ![] bcast_S_S1700000 (constantI S_ 32 0#32))) (addi v (broadcastInDim S1700000 ![] bcast_S_S1700000 (constantI S_ 32 100000#32))) v

/-- The number of edges that end at each node. -/
def deg (d : Vec F S1700000 .i32) : Vec F S100000 .f32 :=
  Host.scatterAdd (F := F) scatter_S100000_S1700000x1_S1700000_n_0_0_1 (broadcastInDim S100000 ![] bcast_S_S100000 (constant (F := F) S_ .f32 0x00000000#32)) (broadcastInDim S1700000x1 ![0] bcast_S1700000_S1700000x1_0 d) (broadcastInDim S1700000 ![] bcast_S_S1700000 (constant (F := F) S_ .f32 0x3F800000#32))

/-- deg^(-1/2) where the degree is positive, zero elsewhere. -/
def dinv (d : Vec F S1700000 .i32) : Vec F S100000 .f32 :=
  select (cmpf (F := F) .ogt (deg d) (broadcastInDim S100000 ![] bcast_S_S100000 (constant (F := F) S_ .f32 0x00000000#32))) (Host.rsqrt (F := F) (deg d)) (broadcastInDim S100000 ![] bcast_S_S100000 (id (constant (F := F) S_ .f32 0x00000000#32)))

/-- The weight of each edge: dinv[source] * dinv[target]. -/
def norm (s d : Vec F S1700000 .i32) : Vec F S1700000 .f32 :=
  mulf (F := F) (Host.gather gather_S100000_S1700000x1_S1700000_n_0_n_n_0_1_1 (dinv d) (broadcastInDim S1700000x1 ![0] bcast_S1700000_S1700000x1_0 (wrap s))) (Host.gather gather_S100000_S1700000x1_S1700000_n_0_n_n_0_1_1 (dinv d) (broadcastInDim S1700000x1 ![0] bcast_S1700000_S1700000x1_0 (wrap d)))

/-- Message passing over projected features `h`: gather at the sources, scale, add up at the targets, add the bias. -/
def aggregate (nrm : Vec F S1700000 .f32) (s d : Vec F S1700000 .i32) (h : Vec F S100000x64 .f32) (b : Vec F S64 .f32) : Vec F S100000x64 .f32 :=
  addf (F := F) (Host.scatterAdd (F := F) scatter_S100000x64_S1700000x1_S1700000x64_1_0_0_1 (broadcastInDim S100000x64 ![] bcast_S_S100000x64 (constant (F := F) S_ .f32 0x00000000#32)) (broadcastInDim S1700000x1 ![0] bcast_S1700000_S1700000x1_0 d) (mulf (F := F) (broadcastInDim S1700000x64 ![0, 1] bcast_S1700000x1_S1700000x64_0_1 (broadcastInDim S1700000x1 ![0] bcast_S1700000_S1700000x1_0 nrm)) (Host.gather gather_S100000x64_S1700000x1_S1700000x64_1_0_n_n_0_1_164 h (broadcastInDim S1700000x1 ![0] bcast_S1700000_S1700000x1_0 (wrap s))))) (broadcastInDim S100000x64 ![0, 1] bcast_S1x64_S100000x64_0_1 (broadcastInDim S1x64 ![1] bcast_S64_S1x64_1 b))

/-- max(., 0). -/
def relu (x : Vec F S100000x64 .f32) : Vec F S100000x64 .f32 :=
  maximumf (F := F) x (broadcastInDim S100000x64 ![] bcast_S_S100000x64 (constant (F := F) S_ .f32 0x00000000#32))

/-- The first projection x · W1ᵀ and the second h · W2ᵀ, as the host computes them. -/
def proj1 (x : Vec F S100000x128 .f32) (wt : Vec F S128x64 .f32) : Vec F S100000x64 .f32 :=
  Host.dotGeneral (F := F) dot_S100000x128_S128x64_S100000x64_1_0_0_1_n_n none x wt

def proj2 (h : Vec F S100000x64 .f32) (wt : Vec F S64x64 .f32) : Vec F S100000x64 .f32 :=
  Host.dotGeneral (F := F) dot_S100000x64_S64x64_S100000x64_1_0_0_1_n_n none h wt

def w1t (w : Vec F S64x128 .f32) : Vec F S128x64 .f32 := transpose S128x64 [1, 0] w transposes_S64x128_S128x64_1_0
def w2t (w : Vec F S64x64 .f32) : Vec F S64x64 .f32 := transpose S64x64 [1, 0] w transposes_S64x64_S64x64_1_0

/-- The hidden features after the first layer and the activation. -/
def hidden (x : Vec F S100000x128 .f32) (e : Vec F S2x1600000 .i32) (W1 : Vec F S64x128 .f32) (b1 : Vec F S64 .f32) : Vec F S100000x64 .f32 :=
  relu (aggregate (norm (srcOf e) (dstOf e)) (srcOf e) (dstOf e) (proj1 x (w1t W1)) b1)

/-- The whole network. -/
def gcn (x : Vec F S100000x128 .f32) (e : Vec F S2x1600000 .i32) (W1 : Vec F S64x128 .f32) (b1 : Vec F S64 .f32)
    (W2 : Vec F S64x64 .f32) (b2 : Vec F S64 .f32) : Vec F S100000x64 .f32 :=
  aggregate (norm (srcOf e) (dstOf e)) (srcOf e) (dstOf e) (proj2 (hidden x e W1 b1) (w2t W2)) b2

end Cert.Gcn

end
-- ==== Proof.Stages.lean ====
/-
  The host operations of the kernel's program, stretch by stretch, are the pieces of the graph convolution: before
  the first projection they build the two index lists, the edge weights and the transposed first weight; between the
  projections they aggregate the projected features, add the bias, apply max(., 0), build the edge weights again and
  transpose the second weight; after the second projection they aggregate once more. Each stretch is read here from
  ANY contents of the buffers it starts from.
-/
import proofs.«176693_j3264175145417_1_alg».proof.Proof.Gen.KernelIdeal.Frame
import proofs.«176693_j3264175145417_1_alg».proof.Proof.Gcn
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

variable (Wp : Valuation τ sig (Elt F))

/-! ## Before the first projection -/

/-- The contents after the three stretches that come before the first projection. -/
abbrev pre : Valuation τ sig (Elt F) := StableHlo.after hostOps0_2 (StableHlo.after hostOps0_1 (StableHlo.after hostOps0 Wp))

theorem pre_src : pre Wp (Proc.devRef .tc main_v3) = Gcn.srcOf (Wp (Proc.devRef .tc main_arg1)) := by
  dsimp only [pre, hostOps0, hostOps0_1, hostOps0_2]
  after_results_simp
  rfl

theorem pre_dst : pre Wp (Proc.devRef .tc main_v6) = Gcn.dstOf (Wp (Proc.devRef .tc main_arg1)) := by
  dsimp only [pre, hostOps0, hostOps0_1, hostOps0_2]
  after_results_simp
  rfl

theorem pre_norm : pre Wp (Proc.devRef .tc main_v29) = Gcn.norm (Gcn.srcOf (Wp (Proc.devRef .tc main_arg1))) (Gcn.dstOf (Wp (Proc.devRef .tc main_arg1))) := by
  dsimp only [pre, hostOps0, hostOps0_1, hostOps0_2]
  after_results_simp
  rfl

theorem pre_w1t : pre Wp (Proc.devRef .tc main_v30) = Gcn.w1t (Wp (Proc.devRef .tc main_arg2)) := by
  dsimp only [pre, hostOps0, hostOps0_1, hostOps0_2]
  after_results_simp
  rfl

theorem pre_arg0 : pre Wp (Proc.devRef .tc main_arg0) = Wp (Proc.devRef .tc main_arg0) := by
  dsimp only [pre, hostOps0, hostOps0_1, hostOps0_2]
  after_results_simp

theorem pre_arg3 : pre Wp (Proc.devRef .tc main_arg3) = Wp (Proc.devRef .tc main_arg3) := by
  dsimp only [pre, hostOps0, hostOps0_1, hostOps0_2]
  after_results_simp

theorem pre_arg4 : pre Wp (Proc.devRef .tc main_arg4) = Wp (Proc.devRef .tc main_arg4) := by
  dsimp only [pre, hostOps0, hostOps0_1, hostOps0_2]
  after_results_simp

theorem pre_arg5 : pre Wp (Proc.devRef .tc main_arg5) = Wp (Proc.devRef .tc main_arg5) := by
  dsimp only [pre, hostOps0, hostOps0_1, hostOps0_2]
  after_results_simp

/-! ## Between the projections -/

/-- The contents after the five stretches between the two projections. -/
abbrev mid : Valuation τ sig (Elt F) :=
  StableHlo.after hostOps1_4 (StableHlo.after hostOps1_3 (StableHlo.after hostOps1_2 (StableHlo.after hostOps1_1 (StableHlo.after hostOps1 Wp))))

theorem mid_hidden : mid Wp (Proc.devRef .tc main_v48) = Gcn.relu (Gcn.aggregate (Wp (Proc.devRef .tc main_v29)) (Wp (Proc.devRef .tc main_v3)) (Wp (Proc.devRef .tc main_v6)) (Wp (Proc.devRef .tc main_v31)) (Wp (Proc.devRef .tc main_arg3))) := by
  dsimp only [mid, hostOps1, hostOps1_1, hostOps1_2, hostOps1_3, hostOps1_4]
  after_results_simp
  rfl

theorem mid_norm : mid Wp (Proc.devRef .tc main_v71) = Gcn.norm (Wp (Proc.devRef .tc main_v3)) (Wp (Proc.devRef .tc main_v6)) := by
  dsimp only [mid, hostOps1, hostOps1_1, hostOps1_2, hostOps1_3, hostOps1_4]
  after_results_simp
  rfl

theorem mid_w2t : mid Wp (Proc.devRef .tc main_v72) = Gcn.w2t (Wp (Proc.devRef .tc main_arg4)) := by
  dsimp only [mid, hostOps1, hostOps1_1, hostOps1_2, hostOps1_3, hostOps1_4]
  after_results_simp
  rfl

theorem mid_v3 : mid Wp (Proc.devRef .tc main_v3) = Wp (Proc.devRef .tc main_v3) := by
  dsimp only [mid, hostOps1, hostOps1_1, hostOps1_2, hostOps1_3, hostOps1_4]
  after_results_simp

theorem mid_v6 : mid Wp (Proc.devRef .tc main_v6) = Wp (Proc.devRef .tc main_v6) := by
  dsimp only [mid, hostOps1, hostOps1_1, hostOps1_2, hostOps1_3, hostOps1_4]
  after_results_simp

theorem mid_arg5 : mid Wp (Proc.devRef .tc main_arg5) = Wp (Proc.devRef .tc main_arg5) := by
  dsimp only [mid, hostOps1, hostOps1_1, hostOps1_2, hostOps1_3, hostOps1_4]
  after_results_simp

/-! ## After the second projection -/

/-- The contents after the last stretch. -/
abbrev post : Valuation τ sig (Elt F) := StableHlo.after hostOps2 Wp

theorem post_out : post Wp (Proc.devRef .tc main_v89) = Gcn.aggregate (Wp (Proc.devRef .tc main_v71)) (Wp (Proc.devRef .tc main_v3)) (Wp (Proc.devRef .tc main_v6)) (Wp (Proc.devRef .tc main_v73)) (Wp (Proc.devRef .tc main_arg5)) := by
  dsimp only [post, hostOps2]
  after_results_simp
  rfl

end Cert.KernelIdeal.Stages

end
-- ==== Proof.LibPlainDot.lean ====
/-
  A product of an [M, K] array with a [K, N] array that contracts the left operand's axis 1 against the right
  operand's axis 0 (no batch axis), read at the entry (p, q): the sum over k of left (p, k) times right (k, q).
  Stated once for every dimension record of that kind, so that the kernel's matrix unit into a zero accumulator
  and the host's dot product are both read by instantiating it. With it, the transpose of an [a, b] array read at
  (p, q): the array at (q, p).
-/
import Idealize.ShloMosaic.Lib.ValueIdx
import Idealize.ShloMosaic.Lib.Pipeline.Value
import Idealize.ShloMosaic.PureOps.Ideal.Laws

noncomputable section

open scoped BigOperators

namespace Idealize.ShloMosaic.PlainDot

open Idealize.ShloMosaic Idealize.ShloMosaic.ValueIdx

variable {M K N : Nat} (D : DotDims ⟨2, ![M, K]⟩ ⟨2, ![K, N]⟩ ⟨2, ![M, N]⟩)

/-- The dimension numbers of a plain matrix product: rows of the left operand against columns of the right one. -/
structure IsPlain : Prop where
  lc : D.lhsContracting = [1]
  rc : D.rhsContracting = [0]
  ln : D.lhsNonContracting = [0]
  rn : D.rhsNonContracting = [1]
  lb : D.lhsBatch = []
  rb : D.rhsBatch = []

variable {D}

/-- The contraction runs over one axis … -/
theorem contr_rank (h : IsPlain D) : D.contr.rank = 1 := by
  rw [D.rank_contr, h.lc]; rfl

/-- … whose extent is the shared dimension K. -/
theorem contr_size (h : IsPlain D) : D.contr.size ⟨0, by have := contr_rank h; omega⟩ = K := by
  have h0 : 0 < D.lhsContracting.length := by rw [h.lc]; exact Nat.one_pos
  rw [D.size_contr 0 h0]
  simp [h.lc]

/-- The left operand's row is the result's row. -/
theorem lhs_row (h : IsPlain D) (j : (⟨2, ![M, N]⟩ : Shape).Idx) (q : D.contr.Idx) :
    (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln])

/-- The left operand's column is the contraction coordinate. -/
theorem lhs_col (h : IsPlain D) (j : (⟨2, ![M, N]⟩ : Shape).Idx) (q : D.contr.Idx) :
    (D.lhsIdx j q 1).val = (q ⟨0, by have := contr_rank h; omega⟩).val :=
  D.lhsIdx_val_of_single h.lc j q

/-- The right operand's row is the contraction coordinate. -/
theorem rhs_row (h : IsPlain D) (j : (⟨2, ![M, N]⟩ : Shape).Idx) (q : D.contr.Idx) :
    (D.rhsIdx j q 0).val = (q ⟨0, by have := contr_rank h; omega⟩).val :=
  D.rhsIdx_val_of_single h.rc j q

/-- The right operand's column is the result's column. -/
theorem rhs_col (h : IsPlain D) (j : (⟨2, ![M, N]⟩ : Shape).Idx) (q : D.contr.Idx) :
    (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln, h.rn])

/-- The contraction's sum, re-indexed by the shared coordinate k. -/
theorem sum_contr {α : Type*} [AddCommMonoid α] [Mul α] (h : IsPlain D)
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank h) (contr_size h)).symm]
  refine Finset.sum_congr rfl fun k _ => ?_
  have hk := contrEquiv1_symm_val D K (contr_rank h) (contr_size h) k
  have el : D.lhsIdx (ix2 p q) ((contrEquiv1 D K (contr_rank h) (contr_size h)).symm k) = ix2 p k :=
    funext fun a => Fin.ext (by
      match a with
      | ⟨0, _⟩ => exact lhs_row h _ _
      | ⟨1, _⟩ => exact (lhs_col h _ _).trans hk)
  have er : D.rhsIdx (ix2 p q) ((contrEquiv1 D K (contr_rank h) (contr_size h)).symm k) = ix2 k q :=
    funext fun a => Fin.ext (by
      match a with
      | ⟨0, _⟩ => exact (rhs_row h _ _).trans hk
      | ⟨1, _⟩ => exact rhs_col h _ _)
  rw [el, er]

/-- The matrix unit into the zero accumulator, on the extended reals, at (p, q). -/
theorem matmul_zero_apply {φ₁ φ₂ : FTy} (h : IsPlain D) (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) :=
  (Ideal.matmul_constant_zero_apply D prec l r (ix2 p q)).trans (sum_contr h l r p q)

/-- The host's dot product, on the extended reals, at (p, q). -/
theorem dotGeneral_apply {φ₁ φ₂ : FTy} (h : IsPlain D) (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) :=
  (Ideal.dotGeneral_apply D prec sched l r (ix2 p q)).trans (sum_contr h l r p q)

/-- The transpose of an [a, b] array at (p, q) is the array at (q, p). -/
theorem transpose_apply2 {α : Type} {a b : Nat} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun c => match c with
    | ⟨0, _⟩ => rfl
    | ⟨1, _⟩ => rfl)

end Idealize.ShloMosaic.PlainDot

end
-- ==== Proof.BlockProduct.lean ====
/-
  One grid point of the first projection: the body loads a [5000, 128] block of the node features and the whole
  [128, 64] transposed weight, narrows both to bf16 (the identity on the extended reals) and multiplies them on the
  matrix unit into a zero accumulator. At the entry (p, q) of the block that is the sum over k of x (p, k) * w (k, q).
  The second projection is the same with 64 in place of 128.
-/
import proofs.«176693_j3264175145417_1_alg».proof.Proof.Gen.KernelIdeal.Skeleton
import proofs.«176693_j3264175145417_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Linear

open Cert.KernelIdeal Cert.KernelIdeal.Gen Idealize.ShloMosaic Idealize.ShloMosaic.ValueIdx

theorem plain0 : PlainDot.IsPlain dot_S5000x128_S128x64_S5000x64_1_0_0_1_n_n := ⟨rfl, rfl, rfl, rfl, rfl, rfl⟩
theorem plain1 : PlainDot.IsPlain dot_S5000x64_S64x64_S5000x64_1_0_0_1_n_n := ⟨rfl, rfl, rfl, rfl, rfl, rfl⟩

/-- The first projection's block product at (p, q). -/
theorem pay0_apply (x : Vec Ideal S5000x128 .f32) (w : Vec Ideal S128x64 .f32) (p : Fin 5000) (q : Fin 64) :
    k0_pay1 x w (ix2 p q) = ∑ k : Fin 128, x (ix2 p k) * w (ix2 k q) := by
  unfold k0_pay1
  rw [shapeCast_self]
  exact PlainDot.matmul_zero_apply plain0 none _ _ p q

/-- The second projection's block product at (p, q). -/
theorem pay1_apply (x : Vec Ideal S5000x64 .f32) (w : Vec Ideal S64x64 .f32) (p : Fin 5000) (q : Fin 64) :
    k1_pay1 x w (ix2 p q) = ∑ k : Fin 64, x (ix2 p k) * w (ix2 k q) := by
  unfold k1_pay1
  rw [shapeCast_self, shapeCast_self]
  exact PlainDot.matmul_zero_apply plain1 none _ _ p q

end Cert.KernelIdeal.Linear

end
-- ==== Proof.RegionProduct.lean ====
/-
  Each projection is a pipeline of twenty grid points; point t multiplies rows 5000 t … 5000 t + 4999 of the left
  array by the whole right array and writes rows 5000 t … 5000 t + 4999 of the result. The blocks are restrictions
  of one whole-array product, and they cover the result, so after the region the result array is that product.
-/
import proofs.«176693_j3264175145417_1_alg».proof.Proof.Gen.KernelIdeal.Frame
import proofs.«176693_j3264175145417_1_alg».proof.Proof.BlockProduct
import Idealize.ShloMosaic.Lib.Pipeline.Value
import Idealize.ShloMosaic.Lib.ValueIdx

set_option maxRecDepth 16384

noncomputable section

open scoped BigOperators

namespace Cert.KernelIdeal.Linear

open Cert.KernelIdeal Cert.KernelIdeal.Gen Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The first projection -/

section Region0

/-- The whole product, entry by entry: row i 0 of the left array against column i 1 of the right one. -/
def prod0 (x : FVec Ideal S100000x128 .f32) (w : FVec Ideal S128x64 .f32) : FVec Ideal S100000x64 .f32 :=
  fun i => ∑ k : Fin 128, x (ix2 (i 0) k) * w (ix2 k (i 1))

/-- Grid point t takes rows 5000 t … 5000 t + 4999 of the left array and of the result, and the whole right array. -/
theorem idx0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- One entry of one block: if the loaded blocks are the rows of `X` and the whole of `Wt` that entry `i` of the
    product needs, the body's value at `j` is that entry. -/
theorem point0 (x0 : Vec Ideal S5000x128 .f32) (x1 : Vec Ideal S128x64 .f32) (X : FVec Ideal S100000x128 .f32) (Wt : FVec Ideal S128x64 .f32)
    (j : S5000x64.Idx) (i : S100000x64.Idx)
    (hx : ∀ k : Fin 128, x0 (ix2 (j 0) k) = X (ix2 (i 0) k))
    (hw : ∀ k : Fin 128, x1 (ix2 k (j 1)) = Wt (ix2 k (i 1))) :
    k0_pay1 x0 x1 j = prod0 X Wt i := by
  obtain ⟨p, q, rfl⟩ : ∃ (p : Fin 5000) (q : Fin 64), j = ix2 p q := ⟨j 0, j 1, eq_ix2 j⟩
  rw [pay0_apply]
  exact Finset.sum_congr rfl fun k _ => congrArg₂ (· * ·) (hx k) (hw k)

variable (V : (c : Dev nD) → (b : Ref sig .tc) → Buf (Elt Ideal) ((c : Thread nD τ).loc b))

/-- What grid point t writes back is block t of the whole product of the arrays the region finds. -/
theorem flushed0 (c : Dev nD) (t : Fin cfg0.N) :
    (dat0 V c).flushed 2 t = ((cfg0.win 2).blk t).view.read (Elt Ideal) (prod0 (V c main_arg0) (V c main_v30)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx0 t
  funext j
  refine point0 (iblk0 V c 0 t) (iblk0 V c 1 t) (V c main_arg0) (V c main_v30) j (((cfg0.win 2).blk t).view.emb j) ?_ ?_
  · intro k
    show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · intro k
    show V c main_v30 (((cfg0.win 1).blk t).view.emb (ix2 k (j 1))) = V c main_v30 (ix2 k ((((cfg0.win 2).blk t).view.emb j) 1))
    refine congrArg (V c main_v30) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the result lies in point t's block iff its row lies in t's 5000 rows. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- The twenty blocks of 5000 rows cover the 100000 rows: row r is in block r / 5000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by omega⟩
  obtain ⟨e0, e1, e2, e3, e4, e5⟩ := idx0 t
  have e5' : win0_2.index t (0 : Fin 2) = (i 0).val / 5000 := e5
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region is the whole product of the arrays the region found. -/
theorem final0 (c : Dev nD) : (dat0 V c).arrAt 2 cfg0.N = prod0 (V c main_arg0) (V c main_v30) :=
  (dat0 V c).arrAt_eq_of_cover 2 (prod0 (V c main_arg0) (V c main_v30)) (fun t _ => flushed0 V c t) cover0

end Region0

/-! ## The second projection -/

section Region1

/-- The whole product, entry by entry: row i 0 of the left array against column i 1 of the right one. -/
def prod1 (x : FVec Ideal S100000x64 .f32) (w : FVec Ideal S64x64 .f32) : FVec Ideal S100000x64 .f32 :=
  fun i => ∑ k : Fin 64, x (ix2 (i 0) k) * w (ix2 k (i 1))

/-- Grid point t takes rows 5000 t … 5000 t + 4999 of the left array and of the result, and the whole right array. -/
theorem idx1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- One entry of one block: if the loaded blocks are the rows of `X` and the whole of `Wt` that entry `i` of the
    product needs, the body's value at `j` is that entry. -/
theorem point1 (x0 : Vec Ideal S5000x64 .f32) (x1 : Vec Ideal S64x64 .f32) (X : FVec Ideal S100000x64 .f32) (Wt : FVec Ideal S64x64 .f32)
    (j : S5000x64.Idx) (i : S100000x64.Idx)
    (hx : ∀ k : Fin 64, x0 (ix2 (j 0) k) = X (ix2 (i 0) k))
    (hw : ∀ k : Fin 64, x1 (ix2 k (j 1)) = Wt (ix2 k (i 1))) :
    k1_pay1 x0 x1 j = prod1 X Wt i := by
  obtain ⟨p, q, rfl⟩ : ∃ (p : Fin 5000) (q : Fin 64), j = ix2 p q := ⟨j 0, j 1, eq_ix2 j⟩
  rw [pay1_apply]
  exact Finset.sum_congr rfl fun k _ => congrArg₂ (· * ·) (hx k) (hw k)

variable (V : (c : Dev nD) → (b : Ref sig .tc) → Buf (Elt Ideal) ((c : Thread nD τ).loc b))

/-- What grid point t writes back is block t of the whole product of the arrays the region finds. -/
theorem flushed1 (c : Dev nD) (t : Fin cfg1.N) :
    (dat1 V c).flushed 2 t = ((cfg1.win 2).blk t).view.read (Elt Ideal) (prod1 (V c main_v48) (V c main_v72)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  obtain ⟨e0, e1, e2, e3, e4, e5⟩ := idx1 t
  funext j
  refine point1 (iblk1 V c 0 t) (iblk1 V c 1 t) (V c main_v48) (V c main_v72) j (((cfg1.win 2).blk t).view.emb j) ?_ ?_
  · intro k
    show V c main_v48 (((cfg1.win 0).blk t).view.emb (ix2 (j 0) k)) = V c main_v48 (ix2 ((((cfg1.win 2).blk t).view.emb j) 0) k)
    refine congrArg (V c main_v48) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * k.val = k.val; omega
  · intro k
    show V c main_v72 (((cfg1.win 1).blk t).view.emb (ix2 k (j 1))) = V c main_v72 (ix2 k ((((cfg1.win 2).blk t).view.emb j) 1))
    refine congrArg (V c main_v72) (funext fun a => Fin.ext ?_)
    match a with
    | ⟨0, _⟩ => show win1_1.index t (0 : Fin 2) * 64 + 1 * k.val = k.val; omega
    | ⟨1, _⟩ => show win1_1.index t (1 : Fin 2) * 64 + 1 * (j 1).val = win1_2.index t (1 : Fin 2) * 64 + 1 * (j 1).val; omega

/-- An index of the result lies in point t's block iff its row lies in t's 5000 rows. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v73).slice (win1_2.rect t)).set ↔ _
  rw [View.set_slice_whole, Rect.mem_set_unit]
  exact Iff.rfl

/-- The twenty blocks of 5000 rows cover the 100000 rows: row r is in block r / 5000. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by omega⟩
  obtain ⟨e0, e1, e2, e3, e4, e5⟩ := idx1 t
  have e5' : win1_2.index t (0 : Fin 2) = (i 0).val / 5000 := e5
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The result array after the region is the whole product of the arrays the region found. -/
theorem final1 (c : Dev nD) : (dat1 V c).arrAt 2 cfg1.N = prod1 (V c main_v48) (V c main_v72) :=
  (dat1 V c).arrAt_eq_of_cover 2 (prod1 (V c main_v48) (V c main_v72)) (fun t _ => flushed1 V c t) cover1

end Region1

end Cert.KernelIdeal.Linear

end
-- ==== Proof.Bridge.lean ====
/-
  The kernel's result buffer, followed back through the boundaries of its program: the last stretch aggregates the
  second projection, which multiplies the hidden features by the transposed second weight; the hidden features come
  from the middle stretches applied to the first projection; the first projection multiplies the node features by the
  transposed first weight. On the extended reals each projection (a matrix unit product into a zero accumulator, block
  by block) is the host's dot product of the whole arrays, so the result is the graph convolution of the arguments.
-/
import proofs.«176693_j3264175145417_1_alg».proof.Proof.Gen.KernelIdeal.Frame
import proofs.«176693_j3264175145417_1_alg».proof.Proof.Stages
import proofs.«176693_j3264175145417_1_alg».proof.Proof.RegionProduct
import proofs.«176693_j3264175145417_1_alg».proof.Proof.Gcn
import proofs.«176693_j3264175145417_1_alg».proof.Proof.LibPlainDot

set_option maxRecDepth 16384

noncomputable section

open scoped BigOperators

namespace Cert.KernelIdeal.Bridge

open Cert.KernelIdeal Cert.KernelIdeal.Gen Idealize.ShloMosaic Idealize.ShloMosaic.TcCoe Idealize.ShloMosaic.ValueIdx Idealize.SL.Sem

theorem refPlain1 : PlainDot.IsPlain Cert.ReferenceIdeal.dot_S100000x128_S128x64_S100000x64_1_0_0_1_n_n := ⟨rfl, rfl, rfl, rfl, rfl, rfl⟩
theorem refPlain2 : PlainDot.IsPlain Cert.ReferenceIdeal.dot_S100000x64_S64x64_S100000x64_1_0_0_1_n_n := ⟨rfl, rfl, rfl, rfl, rfl, rfl⟩

/-- The product of the whole arrays, entry by entry, is the host's dot product on the extended reals. -/
theorem prod0_eq (x : FVec Ideal S100000x128 .f32) (w : FVec Ideal S128x64 .f32) : Linear.prod0 x w = Gcn.proj1 (F := Ideal) x w := by
  funext i
  obtain ⟨p, q, rfl⟩ : ∃ (p : Fin 100000) (q : Fin 64), i = ix2 p q := ⟨i 0, i 1, eq_ix2 i⟩
  exact (PlainDot.dotGeneral_apply refPlain1 none _ x w p q).symm

theorem prod1_eq (x : FVec Ideal S100000x64 .f32) (w : FVec Ideal S64x64 .f32) : Linear.prod1 x w = Gcn.proj2 (F := Ideal) x w := by
  funext i
  obtain ⟨p, q, rfl⟩ : ∃ (p : Fin 100000) (q : Fin 64), i = ix2 p q := ⟨i 0, i 1, eq_ix2 i⟩
  exact (PlainDot.dotGeneral_apply refPlain2 none _ x w p q).symm

variable (m : (ℓ : Loc nD τ sig) → Buf (Elt Ideal) ℓ) (ρ : Dev nD → PrngReg)

/-- The result buffer at the last boundary is the graph convolution of the launch contents of the arguments. -/
theorem out_eq (c : Dev nD) :
    W11 m ρ c (Proc.devRef .tc main_v89) = Gcn.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  -- at the first projection's entry
  have a_src : W3 m ρ c (Proc.devRef .tc main_v3) = (Gcn.srcOf (m ((c : Thread nD τ).loc main_arg1))) := Stages.pre_src (W0 m ρ c)
  have a_dst : W3 m ρ c (Proc.devRef .tc main_v6) = (Gcn.dstOf (m ((c : Thread nD τ).loc main_arg1))) := Stages.pre_dst (W0 m ρ c)
  have a_norm : W3 m ρ c (Proc.devRef .tc main_v29) = (Gcn.norm (Gcn.srcOf (m ((c : Thread nD τ).loc main_arg1))) (Gcn.dstOf (m ((c : Thread nD τ).loc main_arg1)))) := Stages.pre_norm (W0 m ρ c)
  have a_w1t : W3 m ρ c (Proc.devRef .tc main_v30) = Gcn.w1t (m ((c : Thread nD τ).loc main_arg2)) := Stages.pre_w1t (W0 m ρ c)
  have a_x : W3 m ρ c (Proc.devRef .tc main_arg0) = (m ((c : Thread nD τ).loc main_arg0)) := Stages.pre_arg0 (W0 m ρ c)
  have a_b1 : W3 m ρ c (Proc.devRef .tc main_arg3) = (m ((c : Thread nD τ).loc main_arg3)) := Stages.pre_arg3 (W0 m ρ c)
  have a_W2 : W3 m ρ c (Proc.devRef .tc main_arg4) = (m ((c : Thread nD τ).loc main_arg4)) := Stages.pre_arg4 (W0 m ρ c)
  have a_b2 : W3 m ρ c (Proc.devRef .tc main_arg5) = (m ((c : Thread nD τ).loc main_arg5)) := Stages.pre_arg5 (W0 m ρ c)
  -- at its exit
  have b_h : W4 m ρ c (Proc.devRef .tc main_v31) = Gcn.proj1 (m ((c : Thread nD τ).loc main_arg0)) (Gcn.w1t (m ((c : Thread nD τ).loc main_arg2))) := by
    refine (W4_arr m ρ c 2).trans ((Linear.final0 (V3 m ρ) c).trans ?_)
    rw [prod0_eq]
    show Gcn.proj1 (W3 m ρ c (Proc.devRef .tc main_arg0)) (W3 m ρ c (Proc.devRef .tc main_v30)) = _
    rw [a_x, a_w1t]
  have b_src : W4 m ρ c (Proc.devRef .tc main_v3) = (Gcn.srcOf (m ((c : Thread nD τ).loc main_arg1))) := (W4_of_ne m ρ c main_v3 (by decide)).trans a_src
  have b_dst : W4 m ρ c (Proc.devRef .tc main_v6) = (Gcn.dstOf (m ((c : Thread nD τ).loc main_arg1))) := (W4_of_ne m ρ c main_v6 (by decide)).trans a_dst
  have b_norm : W4 m ρ c (Proc.devRef .tc main_v29) = (Gcn.norm (Gcn.srcOf (m ((c : Thread nD τ).loc main_arg1))) (Gcn.dstOf (m ((c : Thread nD τ).loc main_arg1)))) := (W4_of_ne m ρ c main_v29 (by decide)).trans a_norm
  have b_b1 : W4 m ρ c (Proc.devRef .tc main_arg3) = (m ((c : Thread nD τ).loc main_arg3)) := (W4_of_ne m ρ c main_arg3 (by decide)).trans a_b1
  have b_W2 : W4 m ρ c (Proc.devRef .tc main_arg4) = (m ((c : Thread nD τ).loc main_arg4)) := (W4_of_ne m ρ c main_arg4 (by decide)).trans a_W2
  have b_b2 : W4 m ρ c (Proc.devRef .tc main_arg5) = (m ((c : Thread nD τ).loc main_arg5)) := (W4_of_ne m ρ c main_arg5 (by decide)).trans a_b2
  -- at the second projection's entry
  have c_h : W9 m ρ c (Proc.devRef .tc main_v48) = (Gcn.hidden (m ((c : Thread nD τ).loc main_arg0)) (m ((c : Thread nD τ).loc main_arg1)) (m ((c : Thread nD τ).loc main_arg2)) (m ((c : Thread nD τ).loc main_arg3))) := by
    refine (Stages.mid_hidden (W4 m ρ c)).trans ?_
    rw [b_norm, b_src, b_dst, b_h, b_b1]
    rfl
  have c_norm : W9 m ρ c (Proc.devRef .tc main_v71) = (Gcn.norm (Gcn.srcOf (m ((c : Thread nD τ).loc main_arg1))) (Gcn.dstOf (m ((c : Thread nD τ).loc main_arg1)))) := by
    refine (Stages.mid_norm (W4 m ρ c)).trans ?_
    rw [b_src, b_dst]
  have c_w2t : W9 m ρ c (Proc.devRef .tc main_v72) = Gcn.w2t (m ((c : Thread nD τ).loc main_arg4)) := by
    refine (Stages.mid_w2t (W4 m ρ c)).trans ?_
    rw [b_W2]
  have c_src : W9 m ρ c (Proc.devRef .tc main_v3) = (Gcn.srcOf (m ((c : Thread nD τ).loc main_arg1))) := (Stages.mid_v3 (W4 m ρ c)).trans b_src
  have c_dst : W9 m ρ c (Proc.devRef .tc main_v6) = (Gcn.dstOf (m ((c : Thread nD τ).loc main_arg1))) := (Stages.mid_v6 (W4 m ρ c)).trans b_dst
  have c_b2 : W9 m ρ c (Proc.devRef .tc main_arg5) = (m ((c : Thread nD τ).loc main_arg5)) := (Stages.mid_arg5 (W4 m ρ c)).trans b_b2
  -- at its exit
  have d_h : W10 m ρ c (Proc.devRef .tc main_v73) = Gcn.proj2 (Gcn.hidden (m ((c : Thread nD τ).loc main_arg0)) (m ((c : Thread nD τ).loc main_arg1)) (m ((c : Thread nD τ).loc main_arg2)) (m ((c : Thread nD τ).loc main_arg3))) (Gcn.w2t (m ((c : Thread nD τ).loc main_arg4))) := by
    refine (W10_arr m ρ c 2).trans ((Linear.final1 (V9 m ρ) c).trans ?_)
    rw [prod1_eq]
    show Gcn.proj2 (W9 m ρ c (Proc.devRef .tc main_v48)) (W9 m ρ c (Proc.devRef .tc main_v72)) = _
    rw [c_h, c_w2t]
  have d_norm : W10 m ρ c (Proc.devRef .tc main_v71) = (Gcn.norm (Gcn.srcOf (m ((c : Thread nD τ).loc main_arg1))) (Gcn.dstOf (m ((c : Thread nD τ).loc main_arg1)))) := (W10_of_ne m ρ c main_v71 (by decide)).trans c_norm
  have d_src : W10 m ρ c (Proc.devRef .tc main_v3) = (Gcn.srcOf (m ((c : Thread nD τ).loc main_arg1))) := (W10_of_ne m ρ c main_v3 (by decide)).trans c_src
  have d_dst : W10 m ρ c (Proc.devRef .tc main_v6) = (Gcn.dstOf (m ((c : Thread nD τ).loc main_arg1))) := (W10_of_ne m ρ c main_v6 (by decide)).trans c_dst
  have d_b2 : W10 m ρ c (Proc.devRef .tc main_arg5) = (m ((c : Thread nD τ).loc main_arg5)) := (W10_of_ne m ρ c main_arg5 (by decide)).trans c_b2
  -- the last stretch
  refine (Stages.post_out (W10 m ρ c)).trans ?_
  rw [d_norm, d_src, d_dst, d_h, d_b2]
  rfl

end Cert.KernelIdeal.Bridge

end
-- ==== Proof.RefGcn.lean ====
/-
  The reference program's result, as its run states it (one term of the six arguments), is the graph convolution
  of those arguments: the same operations in the same order, so the two terms unfold to one.
-/
import proofs.«176693_j3264175145417_1_alg».proof.Proof.RefRun
import proofs.«176693_j3264175145417_1_alg».proof.Proof.Gcn

set_option maxRecDepth 16384

noncomputable section

namespace Cert.ReferenceIdeal.RefGcn

open Cert.ReferenceIdeal Cert.ReferenceIdeal.Gen Idealize.ShloMosaic Idealize.ShloMosaic.TcCoe Idealize.SL.Sem

variable {F : FTy → Type} [FloatOps F]

theorem res_eq (m : (ℓ : Loc nD τ sig) → Buf (Elt F) ℓ) (c : Dev nD) :
    Cert.ReferenceIdeal.RunP.res_main_v89 m c
      = Gcn.gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.RunP.res_main_v89
  rfl

end Cert.ReferenceIdeal.RefGcn

end
-- ==== Proof.lean ====
/-
  A two-layer graph convolution. The kernel's program computes each layer's dense projection x · Wᵀ in a Pallas
  pipeline (twenty blocks of 5000 rows, bf16 operands on the matrix unit, an f32 zero accumulator) and everything
  else — degrees, edge weights, gather, scatter-add, bias, max(., 0) — with the same host operations as the
  reference, which computes the projections with the host's dot product. On the extended reals the narrowing to bf16
  is the identity and a block product into a zero accumulator is the plain sum over the contracted axis, so each
  pipeline leaves the host's dot product of the whole arrays; the rest of the two programs is the same text. No law
  of the extended reals beyond that is used, and the precondition is never opened.

  The three frames: the generated frames of the two kernel programs, and the reference's run with its result dropped.
  The idealization rewrote nothing, so it is preserved trivially. The value claim: both runs end with the result buffer
  at `Gcn.gcn` of the six arguments.
-/
import proofs.«176693_j3264175145417_1_alg».proof.Defs
import proofs.«176693_j3264175145417_1_alg».proof.Proof.Gen.Kernel
import proofs.«176693_j3264175145417_1_alg».proof.Proof.Gen.Kernel.Skeleton
import proofs.«176693_j3264175145417_1_alg».proof.Proof.Gen.Kernel.Launch
import proofs.«176693_j3264175145417_1_alg».proof.Proof.Gen.Kernel.Points
import proofs.«176693_j3264175145417_1_alg».proof.Proof.Gen.Kernel.Frame
import proofs.«176693_j3264175145417_1_alg».proof.Proof.Gen.KernelIdeal
import proofs.«176693_j3264175145417_1_alg».proof.Proof.Gen.KernelIdeal.Skeleton
import proofs.«176693_j3264175145417_1_alg».proof.Proof.Gen.KernelIdeal.Launch
import proofs.«176693_j3264175145417_1_alg».proof.Proof.Gen.KernelIdeal.Points
import proofs.«176693_j3264175145417_1_alg».proof.Proof.Gen.KernelIdeal.Frame
import proofs.«176693_j3264175145417_1_alg».proof.Proof.Gen.ReferenceIdeal
import proofs.«176693_j3264175145417_1_alg».proof.Proof.Gen.Pre_finite_inputs
import proofs.«176693_j3264175145417_1_alg».proof.Proof.RunValue
import proofs.«176693_j3264175145417_1_alg».proof.Proof.Bridge
import proofs.«176693_j3264175145417_1_alg».proof.Proof.RefRun
import proofs.«176693_j3264175145417_1_alg».proof.Proof.RefGcn
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- Both programs end with the result at the graph convolution of the (agreeing) arguments. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Bridge.out_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.RefGcn.res_eq, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
